-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4194304 : Shape := ⟨2, ![16, 4194304]⟩
abbrev S1024 : Shape := ⟨1, ![1024]⟩
abbrev S_ : Shape := ⟨0, ![]⟩

class Facts : Prop where
  bcast_S_S16x4194304 : S_.BroadcastsInDim S16x4194304 (![] : Fin 0 → Fin S16x4194304.rank)
  reducesTo_S16x4194304_S_d0_1 : S16x4194304.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x4194304 .f32) (main_arg1 : FVec F S1024 .f32) (main_arg2 : FVec F S1024 .f32) : IVec S_ 1 :=
  let main_v0 : FVec F S16x4194304 .f32 := Host.absf main_arg0
  let main_cst : FVec F S_ .f32 := constant S_ .f32 0x7F800000#32
  let main_v1 : FVec F S16x4194304 .f32 := broadcastInDim S16x4194304 ![] bcast_S_S16x4194304 main_cst
  let main_v2 : IVec S16x4194304 1 := cmpf .olt main_v0 main_v1
  let main_c : IVec S_ 1 := constantI S_ 1 1#1
  let main_v3 : IVec S_ 1 := (fun x v => Host.reduce IntOp.andi x v reducesTo_S16x4194304_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16x4194304 : Shape := ⟨2, ![16, 4194304]⟩
abbrev S1024 : Shape := ⟨1, ![1024]⟩
abbrev S512 : Shape := ⟨1, ![512]⟩
abbrev S1x512 : Shape := ⟨2, ![1, 512]⟩
abbrev S8192x512 : Shape := ⟨2, ![8192, 512]⟩
abbrev S4194304 : Shape := ⟨1, ![4194304]⟩
abbrev S_ : Shape := ⟨0, ![]⟩
abbrev S1 : Shape := ⟨1, ![1]⟩
abbrev S1x4194304 : Shape := ⟨2, ![1, 4194304]⟩
abbrev S16x131072 : Shape := ⟨2, ![16, 131072]⟩
abbrev S1x131072 : Shape := ⟨2, ![1, 131072]⟩

abbrev nBuf : Space → Nat
  | .hbm => 20
  | .vmem => 6
  | .smem => 0
  | _ => 0

abbrev bufTy : (tb : Table) → Fin (tcTables nBuf tb) → BufTy
  | .hbm, ⟨0, _⟩ => ⟨S16x4194304, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S4194304, .f32⟩
  | .hbm, ⟨10, _⟩ => ⟨S512, .f32⟩
  | .hbm, ⟨11, _⟩ => ⟨S_, .i32⟩
  | .hbm, ⟨12, _⟩ => ⟨S1, .i32⟩
  | .hbm, ⟨13, _⟩ => ⟨S4194304, .f32⟩
  | .hbm, ⟨14, _⟩ => ⟨S512, .f32⟩
  | .hbm, ⟨15, _⟩ => ⟨S_, .i32⟩
  | .hbm, ⟨16, _⟩ => ⟨S1, .i32⟩
  | .hbm, ⟨17, _⟩ => ⟨S4194304, .f32⟩
  | .hbm, ⟨18, _⟩ => ⟨S1x4194304, .f32⟩
  | .hbm, ⟨19, _⟩ => ⟨S16x4194304, .f32⟩
  | .local _ .vmem, ⟨0, _⟩ => ⟨S16x131072, .f32⟩
  | .local _ .vmem, ⟨1, _⟩ => ⟨S16x131072, .f32⟩
  | .local _ .vmem, ⟨2, _⟩ => ⟨S1x131072, .f32⟩
  | .local _ .vmem, ⟨3, _⟩ => ⟨S1x131072, .f32⟩
  | .local _ .vmem, ⟨4, _⟩ => ⟨S16x131072, .f32⟩
  | .local _ .vmem, ⟨5, _⟩ => ⟨S16x131072, .f32⟩
  | _, _ => ⟨S16x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1024_S512_0 : S1024.Slices ![0] S512
  slices_S1024_S512_512 : S1024.Slices ![512] S512
  shapeCasts_S512_S1x512 : S512.ShapeCasts S1x512
  bcast_S1x512_S8192x512_0_1 : S1x512.BroadcastsInDim S8192x512 (![0, 1] : Fin 2 → Fin S8192x512.rank)
  shapeCasts_S8192x512_S4194304 : S8192x512.ShapeCasts S4194304
  bcast_S_S1 : S_.BroadcastsInDim S1 (![] : Fin 0 → Fin S1.rank)
  shapeCasts_S4194304_S1x4194304 : S4194304.ShapeCasts S1x4194304
  inb_S16x131072_S16x131072_0_0 : ∀ a, (![0, 0] : Fin 2 → Nat) a + S16x131072.size a ≤ S16x131072.size a
  h_S16x131072 : 0 < S16x131072.numel
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  broadcasts_S1x131072_S16x131072 : S1x131072.Broadcasts S16x131072
  scatter_S4194304_S1_S512_0_n_0_0_wf : ScatterDims.WF S4194304 S1 S512 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x131072.size a ≤ S16x4194304.size a
  hwx0_0 : ∀ i : grid0.Coords, EltTy.bits .f32 = 32 ∨ (Rect.block (s := S16x4194304) S16x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072.size a ≤ S1x4194304.size a
  hwx0_1 : ∀ i : grid0.Coords, EltTy.bits .f32 = 32 ∨ (Rect.block (s := S1x4194304) S1x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x131072.size a ≤ S16x4194304.size a
  hwx0_2 : ∀ i : grid0.Coords, EltTy.bits .f32 = 32 ∨ (Rect.block (s := S16x4194304) S16x131072.size (cc0_transform_2 i) (hinb0_2 i)).WholeWords (EltTy.packing .f32)

variable [Facts₀]

def scatter_S4194304_S1_S512_0_n_0_0 : ScatterDims S4194304 S1 S512 where
  updateWindowDims := [0]
  insertedWindowDims := []
  scatterDimsToOperandDims := [0]
  indexVectorDim := 0
  wf := scatter_S4194304_S1_S512_0_n_0_0_wf

abbrev win0_0 : Pipeline.Window sig grid0 :=
  Pipeline.Window.ofSpec (Memref.whole main_arg0) S16x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S16x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4194304 : Shape := ⟨2, ![16, 4194304]⟩
abbrev S1024 : Shape := ⟨1, ![1024]⟩
abbrev S8191 : Shape := ⟨1, ![8191]⟩
abbrev S_ : Shape := ⟨0, ![]⟩
abbrev S8191x1 : Shape := ⟨2, ![8191, 1]⟩
abbrev S1x1024 : Shape := ⟨2, ![1, 1024]⟩
abbrev S8191x1024 : Shape := ⟨2, ![8191, 1024]⟩
abbrev S8191x1024x1 : Shape := ⟨3, ![8191, 1024, 1]⟩
abbrev S16x8191x1024 : Shape := ⟨3, ![16, 8191, 1024]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x4194304, .f32⟩
  | .hbm, ⟨1, _⟩ => ⟨S1024, .f32⟩
  | .hbm, ⟨2, _⟩ => ⟨S1024, .f32⟩
  | .hbm, ⟨3, _⟩ => ⟨S8191, .i32⟩
  | .hbm, ⟨4, _⟩ => ⟨S_, .i32⟩
  | .hbm, ⟨5, _⟩ => ⟨S8191, .i32⟩
  | .hbm, ⟨6, _⟩ => ⟨S8191, .i32⟩
  | .hbm, ⟨7, _⟩ => ⟨S8191x1, .i32⟩
  | .hbm, ⟨8, _⟩ => ⟨S1024, .i32⟩
  | .hbm, ⟨9, _⟩ => ⟨S1x1024, .i32⟩
  | .hbm, ⟨10, _⟩ => ⟨S8191x1024, .i32⟩
  | .hbm, ⟨11, _⟩ => ⟨S8191x1024, .i32⟩
  | .hbm, ⟨12, _⟩ => ⟨S8191x1024, .i32⟩
  | .hbm, ⟨13, _⟩ => ⟨S_, .i32⟩
  | .hbm, ⟨14, _⟩ => ⟨S8191x1024, .i32⟩
  | .hbm, ⟨15, _⟩ => ⟨S8191x1024, .i1⟩
  | .hbm, ⟨16, _⟩ => ⟨S_, .i32⟩
  | .hbm, ⟨17, _⟩ => ⟨S8191x1024, .i32⟩
  | .hbm, ⟨18, _⟩ => ⟨S8191x1024, .i32⟩
  | .hbm, ⟨19, _⟩ => ⟨S8191x1024, .i32⟩
  | .hbm, ⟨20, _⟩ => ⟨S8191x1024x1, .i32⟩
  | .hbm, ⟨21, _⟩ => ⟨S16x8191x1024, .f32⟩
  | .hbm, ⟨22, _⟩ => ⟨S1x1x1024, .f32⟩
  | .hbm, ⟨23, _⟩ => ⟨S16x8191x1024, .f32⟩
  | .hbm, ⟨24, _⟩ => ⟨S16x8191x1024, .f32⟩
  | .hbm, ⟨25, _⟩ => ⟨S_, .f32⟩
  | .hbm, ⟨26, _⟩ => ⟨S16x4194304, .f32⟩
  | .hbm, ⟨27, _⟩ => ⟨S1x1x1024, .f32⟩
  | .hbm, ⟨28, _⟩ => ⟨S16x8191x1024, .f32⟩
  | .hbm, ⟨29, _⟩ => ⟨S16x8191x1024, .f32⟩
  | .hbm, ⟨30, _⟩ => ⟨S_, .i32⟩
  | .hbm, ⟨31, _⟩ => ⟨S8191x1024, .i32⟩
  | .hbm, ⟨32, _⟩ => ⟨S8191x1024, .i1⟩
  | .hbm, ⟨33, _⟩ => ⟨S_, .i32⟩
  | .hbm, ⟨34, _⟩ => ⟨S8191x1024, .i32⟩
  | .hbm, ⟨35, _⟩ => ⟨S8191x1024, .i32⟩
  | .hbm, ⟨36, _⟩ => ⟨S8191x1024, .i32⟩
  | .hbm, ⟨37, _⟩ => ⟨S8191x1024x1, .i32⟩
  | .hbm, ⟨38, _⟩ => ⟨S16x4194304, .f32⟩
  | _, _ => ⟨S16x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S_S8191 : S_.BroadcastsInDim S8191 (![] : Fin 0 → Fin S8191.rank)
  bcast_S8191_S8191x1_0 : S8191.BroadcastsInDim S8191x1 (![0] : Fin 1 → Fin S8191x1.rank)
  bcast_S1024_S1x1024_1 : S1024.BroadcastsInDim S1x1024 (![1] : Fin 1 → Fin S1x1024.rank)
  bcast_S8191x1_S8191x1024_0_1 : S8191x1.BroadcastsInDim S8191x1024 (![0, 1] : Fin 2 → Fin S8191x1024.rank)
  bcast_S1x1024_S8191x1024_0_1 : S1x1024.BroadcastsInDim S8191x1024 (![0, 1] : Fin 2 → Fin S8191x1024.rank)
  bcast_S_S8191x1024 : S_.BroadcastsInDim S8191x1024 (![] : Fin 0 → Fin S8191x1024.rank)
  bcast_S8191x1024_S8191x1024x1_0_1 : S8191x1024.BroadcastsInDim S8191x1024x1 (![0, 1] : Fin 2 → Fin S8191x1024x1.rank)
  bcast_S1024_S1x1x1024_2 : S1024.BroadcastsInDim S1x1x1024 (![2] : Fin 1 → Fin S1x1x1024.rank)
  bcast_S1x1x1024_S16x8191x1024_0_1_2 : S1x1x1024.BroadcastsInDim S16x8191x1024 (![0, 1, 2] : Fin 3 → Fin S16x8191x1024.rank)
  bcast_S_S16x4194304 : S_.BroadcastsInDim S16x4194304 (![] : Fin 0 → Fin S16x4194304.rank)
  gather_S16x4194304_S8191x1024x1_S16x8191x1024_0_1_n_n_1_2_161_wf : GatherDims.WF S16x4194304 S8191x1024x1 S16x8191x1024 [0] [1] [] [1] [] 2 ![16, 1]
  scatter_S16x4194304_S8191x1024x1_S16x8191x1024_0_1_1_2_wf : ScatterDims.WF S16x4194304 S8191x1024x1 S16x8191x1024 [0] [1] [1] 2

variable [Facts₀]

def gather_S16x4194304_S8191x1024x1_S16x8191x1024_0_1_n_n_1_2_161 : GatherDims S16x4194304 S8191x1024x1 S16x8191x1024 where
  offsetDims := [0]
  collapsedSliceDims := [1]
  operandBatchingDims := []
  startIndicesBatchingDims := []
  startIndexMap := [1]
  indexVectorDim := 2
  sliceSizes := ![16, 1]
  wf := gather_S16x4194304_S8191x1024x1_S16x8191x1024_0_1_n_n_1_2_161_wf
def scatter_S16x4194304_S8191x1024x1_S16x8191x1024_0_1_1_2 : ScatterDims S16x4194304 S8191x1024x1 S16x8191x1024 where
  updateWindowDims := [0]
  insertedWindowDims := [1]
  scatterDimsToOperandDims := [1]
  indexVectorDim := 2
  wf := scatter_S16x4194304_S8191x1024x1_S16x8191x1024_0_1_1_2_wf

class Facts : Prop extends Facts₀ where

variable [Facts]
-- ==== Proof.Spec.lean ====
/-
  The mathematics of the statement, with no program in sight.

  A signal `x[b, n]` (16 rows of 4194304 samples) is cut into 8191 frames of 1024 samples at hop 512, frame `k`
  covering samples `[512 k, 512 k + 1024)`; every frame is multiplied tap by tap by an analysis window and then by a
  synthesis window, and the frames are added back at their places. Since the frame length is twice the hop, a sample
  `n` lies in at most two frames: frame `n / 512` at tap `n % 512` (unless `n` is in the last 512 samples, where there
  is no such frame) and frame `n / 512 - 1` at tap `n % 512 + 512` (unless `n` is in the first 512 samples).
  So the overlap-add is `x[b, n]` times a fixed table of the windows: `table` below. `refOut` is the overlap-add written
  as its one or two terms, `kernelOut` the product with the table; they agree wherever `x` and the windows are real
  numbers, by distributivity (which fails on the extended reals at infinities: hence the hypotheses).
-/
import Idealize.ShloMosaic.PureOps.Ideal
import Idealize.ShloMosaic.Lib.ValueIdx

noncomputable section

namespace Cert.Ola

open Idealize.ShloMosaic Idealize.ShloMosaic.ValueIdx

/-- The signal's shape: 16 rows of 4194304 samples. -/
abbrev SX : Shape := ⟨2, ![16, 4194304]⟩
/-- A window's shape: 1024 taps. -/
abbrev SW : Shape := ⟨1, ![1024]⟩

/-- The tap at which the frame STARTING in sample `n`'s hop reads `n`: `n % 512`. -/
def lo (n : Fin 4194304) : Fin 1024 := ⟨n.val % 512, by omega⟩
/-- The tap at which the frame starting one hop EARLIER reads `n`: `n % 512 + 512`. -/
def hi (n : Fin 4194304) : Fin 1024 := ⟨n.val % 512 + 512, by omega⟩

/-- The frame that starts in sample `n`'s hop, `n / 512` (capped at the last frame, 8190: in the last hop no frame starts). -/
def frLo (n : Fin 4194304) : Fin 8191 := ⟨min (n.val / 512) 8190, by omega⟩
/-- The frame that starts one hop earlier, `n / 512 - 1` (frame 0 in the first hop, where there is none earlier). -/
def frHi (n : Fin 4194304) : Fin 8191 := ⟨n.val / 512 - 1, by omega⟩

/-- The two windows' product at a tap: the only combination of them that reaches the output. -/
def tap (aw sw : SW.Idx → EReal) (s : Fin 1024) : EReal := aw (ix1 s) * sw (ix1 s)

/-- The table the signal is multiplied by: one tap in the first and in the last hop, the sum of two taps between. -/
def table (aw sw : SW.Idx → EReal) (n : Fin 4194304) : EReal :=
  if n.val < 512 then tap aw sw (lo n)
  else if 4193792 ≤ n.val then tap aw sw (hi n)
  else tap aw sw (lo n) + tap aw sw (hi n)

/-- The signal times the table. -/
def kernelOut (x : SX.Idx → EReal) (aw sw : SW.Idx → EReal) : SX.Idx → EReal :=
  fun i => x i * table aw sw (i 1)

/-- What one frame adds at sample `n` of row `b` through its tap `s`: the sample, windowed twice. -/
def term (x : SX.Idx → EReal) (aw sw : SW.Idx → EReal) (b : Fin 16) (n : Fin 4194304) (s : Fin 1024) : EReal :=
  x (ix2 b n) * aw (ix1 s) * sw (ix1 s)

/-- The overlap-add, sample by sample: the one or two frames that cover the sample. -/
def refOut (x : SX.Idx → EReal) (aw sw : SW.Idx → EReal) : SX.Idx → EReal :=
  fun i =>
    if (i 1).val < 512 then term x aw sw (i 0) (i 1) (lo (i 1))
    else if 4193792 ≤ (i 1).val then term x aw sw (i 0) (i 1) (hi (i 1))
    else term x aw sw (i 0) (i 1) (lo (i 1)) + term x aw sw (i 0) (i 1) (hi (i 1))

/-- The product with the table at explicit coordinates. -/
theorem kernelOut_apply (x : SX.Idx → EReal) (aw sw : SW.Idx → EReal) (b : Fin 16) (n : Fin 4194304) :
    kernelOut x aw sw (ix2 b n) = x (ix2 b n) * table aw sw n := rfl

/-- The overlap-add at explicit coordinates. -/
theorem refOut_apply (x : SX.Idx → EReal) (aw sw : SW.Idx → EReal) (b : Fin 16) (n : Fin 4194304) :
    refOut x aw sw (ix2 b n) =
      if n.val < 512 then term x aw sw b n (lo n)
      else if 4193792 ≤ n.val then term x aw sw b n (hi n)
      else term x aw sw b n (lo n) + term x aw sw b n (hi n) := rfl

/-- On real inputs the product with the table IS the overlap-add: `x (a b + c d) = x a b + x c d` over the reals. -/
theorem kernelOut_eq_refOut (x : SX.Idx → EReal) (aw sw : SW.Idx → EReal)
    (hx : ∀ i, ∃ r : ℝ, x i = (r : EReal)) (ha : ∀ i, ∃ r : ℝ, aw i = (r : EReal))
    (hs : ∀ i, ∃ r : ℝ, sw i = (r : EReal)) : kernelOut x aw sw = refOut x aw sw := by
  funext i
  obtain ⟨b, n, rfl⟩ : ∃ (b : Fin 16) (n : Fin 4194304), i = ix2 b n := ⟨i 0, i 1, eq_ix2 i⟩
  obtain ⟨xr, hxr⟩ := hx (ix2 b n)
  obtain ⟨a0, ha0⟩ := ha (ix1 (lo n))
  obtain ⟨a1, ha1⟩ := ha (ix1 (hi n))
  obtain ⟨s0, hs0⟩ := hs (ix1 (lo n))
  obtain ⟨s1, hs1⟩ := hs (ix1 (hi n))
  rw [kernelOut_apply, refOut_apply]
  unfold table term tap
  rw [hxr, ha0, ha1, hs0, hs1]
  split_ifs
  · rw [← EReal.coe_mul, ← EReal.coe_mul, ← EReal.coe_mul, ← EReal.coe_mul]; congr 1; ring
  · rw [← EReal.coe_mul, ← EReal.coe_mul, ← EReal.coe_mul, ← EReal.coe_mul]; congr 1; ring
  · simp only [← EReal.coe_mul, ← EReal.coe_add]; congr 1; ring

end Cert.Ola

end
-- ==== Proof.Finite.lean ====
/-
  What the precondition says: an array whose entries all have absolute value below `+∞` holds real numbers only.

  The precondition is the conjunction of three `jnp.all (|a| < inf)`, one per argument. Each `all` is an `and`-reduction
  to one element, which is 1 only if every compared element gave 1; the literal it compares with denotes `⊤`; and an
  extended real whose absolute value `max a (-a)` is below `⊤` is neither `⊤` nor `⊥`.
-/
import proofs.«107043_j91293824843827_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

instance : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `⊤` is a real number. -/
theorem real_of_abs_lt_top (a : EReal) (h : Ideal.cmp .olt (max a (-a)) (⊤ : EReal) = 1#1) : ∃ r : ℝ, a = (r : EReal) := by
  induction a using EReal.rec with
  | bot => simp [Ideal.cmp] at h
  | coe r => exact ⟨r, rfl⟩
  | top => simp [Ideal.cmp] at h

/-- One comparison of the precondition, read at an element. -/
theorem real_of_cmp {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  rw [← inf_word]
  exact h

/-- THE PRECONDITION READ: all three arguments hold real numbers. -/
theorem finite_of_pre [Facts] (x : FVec Ideal S16x4194304 .f32) (aw sw : FVec Ideal S1024 .f32)
    (h : fn (F := Ideal) x aw sw = fun _ => 1#1) :
    (∀ i, ∃ r : ℝ, x i = (r : EReal)) ∧ (∀ i, ∃ r : ℝ, aw i = (r : EReal)) ∧ (∀ i, ∃ r : ℝ, sw i = (r : EReal)) := by
  have h0 := congrFun h ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_cmp _ x i (Host.reduce_andi_all _ _ _ _ ix0 h1 i)
  · exact real_of_cmp _ aw i (Host.reduce_andi_all _ _ _ _ ix0 h2 i)
  · exact real_of_cmp _ sw i (Host.reduce_andi_all _ _ _ _ ix0 h3 i)

end Cert.Finite

end
-- ==== Proof.KernelArray.lean ====
/-
  The kernel's result array after the run, as one function of the arrays the region finds: each block of 131072
  columns is the signal's block times the table's block broadcast down the 16 rows, and the 32 blocks tile the array, so
  element `(b, n)` is the signal's `(b, n)` times the table's `(0, n)`.
-/
import proofs.«107043_j91293824843827_1_alg».proof.Proof.Gen.KernelIdeal.Value
import Idealize.ShloMosaic.Lib.ValueIdx

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The signal as the region finds it. -/
abbrev sigArr (c : Dev nD) : S16x4194304.Idx → EReal := V m c main_arg0
/-- The table row as the region finds it. -/
abbrev tabArr (c : Dev nD) : S1x4194304.Idx → EReal := V m c main_v13

/-- A whole-buffer access starts at the origin. -/
theorem origin : (![0, 0] : Fin 2 → Nat) = fun _ => 0 :=
  funext fun a => match a with | ⟨0, _⟩ => rfl | ⟨1, _⟩ => rfl

/-- The product array: the signal times the table row broadcast down the rows. -/
abbrev prodArr (c : Dev nD) : S16x4194304.Idx → EReal :=
  fun i => sigArr m c i * tabArr m c (ix2 (0 : Fin 1) (i 1))

/-- The block the body leaves, element by element: the signal block's element times the table block's element of the
    same column. -/
theorem block_apply (x0 : S16x131072.Idx → EReal) (x1 : S1x131072.Idx → EReal) (y : S16x131072.Idx) :
    out0_2 (F := Ideal) x0 x1 y = x0 y * x1 (ix2 (0 : Fin 1) (y 1)) := by
  unfold out0_2
  refine (canon2_eq _ _ y).trans ?_
  rw [View.ld_unit_zero (S := S16x131072) origin, View.ld_unit_zero (S := S1x131072) origin]
  show x0 (ix2_0 y) * x1 (ix2_1 y) = _
  congr 2
  · funext a; match a with | ⟨0, _⟩ => rfl | ⟨1, _⟩ => rfl
  · funext a; match a with | ⟨0, _⟩ => rfl | ⟨1, _⟩ => rfl

/-- The three index maps, decided over the 32 grid points: every window sits in block row 0, the two inputs move along
    the columns with the output, and the output's block column stays below 32. -/
theorem index_facts : ∀ t : Fin cfg0.N, win0_0.index t (0 : Fin 2) = 0
    ∧ win0_0.index t (1 : Fin 2) = win0_2.index t (1 : Fin 2)
    ∧ win0_1.index t (0 : Fin 2) = 0
    ∧ win0_1.index t (1 : Fin 2) = win0_2.index t (1 : Fin 2)
    ∧ win0_2.index t (0 : Fin 2) = 0
    ∧ win0_2.index t (1 : Fin 2) ≤ 31 :=
  (by decide +kernel : ∀ t : Fin grid0.N, _)

/-- Every one of the 32 block columns is some grid point's. -/
theorem index_onto : ∀ q : Fin 32, ∃ t : Fin cfg0.N, win0_2.index t = ![0, q.val] :=
  (by decide +kernel : ∀ q : Fin 32, ∃ t : Fin grid0.N, win0_2.index t = ![0, q.val])

/-- What grid point `t` writes back is block `t` of the product array. -/
theorem flushed_eq (c : Dev nD) (t : Fin cfg0.N) :
    (dats m 0 c).flushed 2 t = ((cfg0.win 2).blk t).view.read (Elt Ideal) (prodArr m c) := by
  rw [Value.flushed2]
  obtain ⟨e0, e1, e2, e3, e4, e5⟩ := index_facts t
  refine funext fun (y : S16x131072.Idx) => ?_
  show out0_2 (iblk m c 0 t) (iblk m c 1 t) y = prodArr m c (((cfg0.win 2).blk t).view.emb y)
  refine (block_apply _ _ y).trans ?_
  have hy0 : (y 0).val < 16 := (y 0).isLt
  have hy1 : (y 1).val < 131072 := (y 1).isLt
  have h0 : (((cfg0.win 0).blk t).view.emb y : S16x4194304.Idx) = ((cfg0.win 2).blk t).view.emb y := by
    funext a; apply Fin.ext
    match a with
    | ⟨0, _⟩ => show win0_0.index t (0 : Fin 2) * 16 + 1 * (y 0).val = win0_2.index t (0 : Fin 2) * 16 + 1 * (y 0).val; omega
    | ⟨1, _⟩ => show win0_0.index t (1 : Fin 2) * 131072 + 1 * (y 1).val = win0_2.index t (1 : Fin 2) * 131072 + 1 * (y 1).val; omega
  have h1 : (((cfg0.win 1).blk t).view.emb (ix2 (0 : Fin 1) (y 1)) : S1x4194304.Idx)
      = ix2 (0 : Fin 1) ((((cfg0.win 2).blk t).view.emb y : S16x4194304.Idx) 1) := by
    funext a; apply Fin.ext
    match a with
    | ⟨0, _⟩ => show win0_1.index t (0 : Fin 2) * 1 + 1 * 0 = 0; omega
    | ⟨1, _⟩ => show win0_1.index t (1 : Fin 2) * 131072 + 1 * (y 1).val = win0_2.index t (1 : Fin 2) * 131072 + 1 * (y 1).val; omega
  exact congrArg₂ (fun (i : S16x4194304.Idx) (k : S1x4194304.Idx) => sigArr m c i * tabArr m c k) h0 h1

/-- An index lies in grid point `t`'s block iff each coordinate lies in the block's range on its axis. -/
theorem mem_blk (t : Fin cfg0.N) (i : S16x4194304.Idx) :
    i ∈ ((cfg0.win 2).blk t).view.set ↔ ∀ a : Fin 2, win0_2.index t a * S16x131072.size a ≤ (i a).val
      ∧ (i a).val < win0_2.index t a * S16x131072.size a + S16x131072.size a := by
  show i ∈ ((View.whole main_v14).slice (win0_2.rect t)).set ↔ _
  rw [View.set_slice_whole, Rect.mem_set_unit]
  exact Iff.rfl

/-- The 32 blocks tile the array: column `n` lies in block column `n / 131072`, all 16 rows in block row 0. -/
theorem cover (i : S16x4194304.Idx) :
    ∃ t : Fin cfg0.N, (cfg0.win 2).flush t = true ∧ i ∈ ((cfg0.win 2).blk t).view.set := by
  have hi0 : (i 0).val < 16 := (i 0).isLt
  have hi1 : (i 1).val < 4194304 := (i 1).isLt
  obtain ⟨t, ht⟩ := index_onto ⟨(i 1).val / 131072, by omega⟩
  have q0 : win0_2.index t (0 : Fin 2) = 0 := congrFun ht 0
  have q1 : win0_2.index t (1 : Fin 2) = (i 1).val / 131072 := congrFun ht 1
  refine ⟨t, flush0_2 t, ?_⟩
  rw [mem_blk]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 131072 ≤ (i 1).val ∧ (i 1).val < win0_2.index t (1 : Fin 2) * 131072 + 131072
    omega

/-- THE RESULT ARRAY: the signal times the table row, element by element. -/
theorem kernel_array (c : Dev nD) :
    (dats m 0 c).arrAt 2 cfg0.N = fun i => sigArr m c i * tabArr m c (ix2 (0 : Fin 1) (i 1)) :=
  (dats m 0 c).arrAt_eq_of_cover 2 (prodArr m c) (fun t _ => flushed_eq m c t) cover

end Cert.KernelIdeal.KValue

end
-- ==== Proof.LibScatterRead.lean ====
/-
  A replacing scatter (`x.at[idx].set(upd)`) read at an element.

  The scatter is a left fold over the update indices: each update whose result index is inside the operand replaces
  the element there. Read at ONE element `i`: if no update lands on `i` the element is the operand's; if the updates
  that land on `i` all carry one value, the element is that value (whatever their order). The second part of the file
  specialises this to a WINDOW written into a flat array at one start index: the elements `[start, start + M)` become
  the update, the others stay.
-/
import Idealize.ShloMosaic.PureOps.Ideal
import Idealize.ShloMosaic.Lib.ValueIdx

noncomputable section

namespace Cert.LibScatter

open Idealize.ShloMosaic Idealize.ShloMosaic.ValueIdx

variable {α : Type} {s si u : Shape} {w : Nat}

/-- One step of the fold: the update of row-major position `n` replaces the element at its result index, when it has one. -/
private def step (d : ScatterDims s si u) (idx : IVec si w) (upd : u.Idx → α) (r : s.Idx → α) (n : Fin u.numel) :
    s.Idx → α :=
  match d.resultIdx? (u.rowMajor.symm n) idx with
  | some i => fun i' => if i' = i then (fun (_ b : α) => b) (r i) (upd (u.rowMajor.symm n)) else r i'
  | none => r

/-- The scatter is the fold of that step over all row-major positions. -/
private theorem scatter_eq_foldl (d : ScatterDims s si u) (x : s.Idx → α) (idx : IVec si w) (upd : u.Idx → α) :
    Host.scatter d (fun _ b => b) x idx upd = (List.finRange u.numel).foldl (step d idx upd) x := rfl

/-- A step whose update has no result index changes nothing. -/
private theorem step_none (d : ScatterDims s si u) (idx : IVec si w) (upd : u.Idx → α) (r : s.Idx → α) (n : Fin u.numel)
    (h : d.resultIdx? (u.rowMajor.symm n) idx = none) : step d idx upd r n = r := by
  unfold step; rw [h]

/-- A step whose update lands on `i₀` writes the update's element there and leaves the rest. -/
private theorem step_some (d : ScatterDims s si u) (idx : IVec si w) (upd : u.Idx → α) (r : s.Idx → α) (n : Fin u.numel)
    (i₀ i : s.Idx) (h : d.resultIdx? (u.rowMajor.symm n) idx = some i₀) :
    step d idx upd r n i = if i = i₀ then upd (u.rowMajor.symm n) else r i := by
  unfold step; rw [h]

/-- Over any list of positions none of which lands on `i`, the fold leaves element `i` alone. -/
private theorem foldl_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (step d idx upd) r i = r i := by
  induction l generalizing r with
  | nil => rfl
  | cons n l ih =>
    rw [List.foldl_cons, ih _ (fun m hm => h m (List.mem_cons_of_mem _ hm))]
    have hn := h n (List.mem_cons_self ..)
    cases hr : d.resultIdx? (u.rowMajor.symm n) idx with
    | none => rw [step_none d idx upd r n hr]
    | some i₀ =>
      rw [step_some d idx upd r n i₀ i hr, if_neg]
      intro e; exact hn (by rw [hr, e])

/-- Over any list of positions one of which lands on `i`, all those that do carrying the value `v`, the fold's element
    `i` is `v`: the last position of the list that lands on `i` writes `v` and the ones after it miss. -/
private theorem foldl_hit (d : ScatterDims s si u) (idx : IVec si w) (upd : u.Idx → α) (i : s.Idx) (v : α)
    (l : List (Fin u.numel)) (r : s.Idx → α)
    (hex : ∃ n ∈ l, d.resultIdx? (u.rowMajor.symm n) idx = some i)
    (hall : ∀ n ∈ l, d.resultIdx? (u.rowMajor.symm n) idx = some i → upd (u.rowMajor.symm n) = v) :
    l.foldl (step d idx upd) r i = v := by
  induction l generalizing r with
  | nil => obtain ⟨n, hn, _⟩ := hex; cases hn
  | cons n l ih =>
    rw [List.foldl_cons]
    by_cases htail : ∃ m ∈ l, d.resultIdx? (u.rowMajor.symm m) idx = some i
    · exact ih _ htail (fun m hm => hall m (List.mem_cons_of_mem _ hm))
    · rw [foldl_miss d idx upd i l _ (fun m hm e => htail ⟨m, hm, e⟩)]
      obtain ⟨m, hm, e⟩ := hex
      rcases List.mem_cons.1 hm with rfl | hm'
      · rw [step_some d idx upd r m i i e, if_pos rfl]
        exact hall m (List.mem_cons_self ..) e
      · exact absurd ⟨m, hm', e⟩ htail

/-- No update lands on `i`: the element is the operand's. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_miss d idx upd i _ x (fun n _ => h _)

/-- Some update lands on `i`, and every update that does carries the value `v`: the element is `v`. -/
theorem scatter_set_hit (d : ScatterDims s si u) (x : s.Idx → α) (idx : IVec si w) (upd : u.Idx → α) (i : s.Idx) (v : α)
    (hex : ∃ j : u.Idx, d.resultIdx? j idx = some i)
    (hall : ∀ j : u.Idx, d.resultIdx? j idx = some i → upd j = v) :
    Host.scatter d (fun _ b => b) x idx upd i = v := by
  rw [scatter_eq_foldl]
  obtain ⟨j, hj⟩ := hex
  refine foldl_hit d idx upd i v _ x ⟨u.rowMajor j, List.mem_finRange _, ?_⟩ (fun n _ e => hall _ e)
  rw [Equiv.symm_apply_apply]; exact hj

/-- The dimension numbers of a window of `M` elements written into a flat array of `N` at one start index
    (`update_window_dims = [0]`, `scatter_dims_to_operand_dims = [0]`, the index vector on axis 0). -/
abbrev windowDims (N M : Nat) (wf : ScatterDims.WF ⟨1, ![N]⟩ ⟨1, ![1]⟩ ⟨1, ![M]⟩ [0] [] [0] 0) :
    ScatterDims ⟨1, ![N]⟩ ⟨1, ![1]⟩ ⟨1, ![M]⟩ where
  updateWindowDims := [0]
  insertedWindowDims := []
  scatterDimsToOperandDims := [0]
  indexVectorDim := 0
  wf := wf

section Window
variable {N M : Nat} (wf : ScatterDims.WF ⟨1, ![N]⟩ ⟨1, ![1]⟩ ⟨1, ![M]⟩ [0] [] [0] 0)

/-- The window's start on the one operand axis is the one scatter index, read signed. -/
private theorem window_start (idx : IVec ⟨1, ![1]⟩ w) (j : (⟨1, ![M]⟩ : Shape).Idx) (a : Fin 1) :
    (windowDims N M wf).start j idx a = (idx (ix1 (0 : Fin 1))).toInt := by
  obtain rfl : a = 0 := Subsingleton.elim _ _
  unfold ScatterDims.start
  rw [dif_pos (show (0 : Fin 1) ∈ (windowDims N M wf).scatterDimsToOperandDims from List.mem_singleton.mpr rfl)]
  congr 2
  funext b
  match b with
  | ⟨0, _⟩ => exact Subsingleton.elim (α := Fin 1) _ _

/-- The window coordinate on the one operand axis is the update's coordinate. -/
private theorem window_window (j : Fin M) (a : Fin 1) : (windowDims N M wf).window (ix1 j) a = j.val := by
  obtain rfl : a = 0 := Subsingleton.elim _ _
  unfold ScatterDims.window
  rw [dif_pos (show (0 : Fin 1) ∈ (windowDims N M wf).sKept from
    List.mem_filter.2 ⟨List.mem_finRange _, by simp⟩)]
  rfl

/-- Update element `j` of a window that fits lands on element `start + j`. -/
private theorem window_resultIdx (idx : IVec ⟨1, ![1]⟩ w) (start : Nat)
    (hstart : (idx (ix1 (0 : Fin 1))).toInt = (start : Int)) (hfit : start + M ≤ N) (j : Fin M) :
    (windowDims N M wf).resultIdx? (ix1 j) idx = some (ix1 ⟨start + j.val, by omega⟩) := by
  have hc : ∀ a : Fin 1, (windowDims N M wf).start (ix1 j) idx a + ((windowDims N M wf).window (ix1 j) a : Int)
      = ((start + j.val : Nat) : Int) := by
    intro a; rw [window_start, window_window, hstart]; push_cast; rfl
  have hsz : ∀ a : Fin 1, (⟨1, ![N]⟩ : Shape).size a = N := by
    intro a; obtain rfl : a = 0 := Subsingleton.elim _ _; rfl
  unfold ScatterDims.resultIdx?
  rw [dif_pos (by intro a; rw [hc a, hsz a]; have := j.isLt; constructor <;> omega)]
  congr 1
  funext a
  obtain rfl : a = 0 := Subsingleton.elim _ _
  refine Fin.ext ?_
  show ((windowDims N M wf).start (ix1 j) idx 0 + ((windowDims N M wf).window (ix1 j) 0 : Int)).toNat = start + j.val
  rw [hc 0, Int.toNat_natCast]

end Window

/-- THE WINDOW WRITE READ AT AN ELEMENT: with the start index the natural number `start` and the window inside the
    array, element `n` is the update's element `n - start` inside `[start, start + M)` and the operand's outside. -/
theorem window_set_apply {N M : Nat} (wf : ScatterDims.WF ⟨1, ![N]⟩ ⟨1, ![1]⟩ ⟨1, ![M]⟩ [0] [] [0] 0)
    (x : (⟨1, ![N]⟩ : Shape).Idx → α) (idx : IVec ⟨1, ![1]⟩ w) (upd : (⟨1, ![M]⟩ : Shape).Idx → α)
    (start : Nat) (hstart : (idx (ix1 (0 : Fin 1))).toInt = (start : Int)) (hfit : start + M ≤ N) (n : Fin N) :
    Host.scatter (windowDims N M wf) (fun _ b => b) x idx upd (ix1 n)
      = if h : start ≤ n.val ∧ n.val < start + M then upd (ix1 ⟨n.val - start, by omega⟩) else x (ix1 n) := by
  -- an update element that lands on `n` is element `n - start`
  have key : ∀ j₀ : Fin M, (windowDims N M wf).resultIdx? (ix1 j₀) idx = some (ix1 n) → start + j₀.val = n.val := by
    intro j₀ hj
    rw [window_resultIdx wf idx start hstart hfit j₀] at hj
    exact congrArg Fin.val (congrFun (Option.some.inj hj) 0)
  by_cases h : start ≤ n.val ∧ n.val < start + M
  · rw [dif_pos h]
    refine scatter_set_hit _ x idx upd (ix1 n) _ ⟨ix1 ⟨n.val - start, by omega⟩, ?_⟩ ?_
    · rw [window_resultIdx wf idx start hstart hfit]
      congr 2
      exact Fin.ext (by show start + (n.val - start) = n.val; omega)
    · intro j hj
      obtain ⟨j₀, rfl⟩ : ∃ j₀ : Fin M, j = ix1 j₀ := ⟨j 0, eq_ix1 j⟩
      have hk := key j₀ hj
      congr 2
      exact Fin.ext (by show j₀.val = n.val - start; omega)
  · rw [dif_neg h]
    refine scatter_set_miss _ x idx upd (ix1 n) (fun j hj => h ?_)
    obtain ⟨j₀, rfl⟩ : ∃ j₀ : Fin M, j = ix1 j₀ := ⟨j 0, eq_ix1 j⟩
    have hk := key j₀ hj
    have := j₀.isLt
    exact ⟨by omega, by omega⟩

end Cert.LibScatter

end
-- ==== Proof.KernelTable.lean ====
/-
  The table the kernel's host code builds before the region, read at a column: the product of the two windows, its two
  halves added, tiled 8192 times, then its first 512 entries overwritten by the first half and its last 512 by the second
  half, is `Ola.table` of the two windows.
-/
import proofs.«107043_j91293824843827_1_alg».proof.Proof.Gen.KernelIdeal.Frame
import proofs.«107043_j91293824843827_1_alg».proof.Proof.Spec
import proofs.«107043_j91293824843827_1_alg».proof.Proof.LibScatterRead
import Idealize.ShloMosaic.Lib.StableHlo.Run
import Idealize.ShloMosaic.Lib.Pipeline.Value

set_option maxRecDepth 16384

noncomputable section

namespace Cert.KernelIdeal.KTable

open Cert.KernelIdeal Cert.KernelIdeal.Gen
open Idealize.ShloMosaic Idealize.ShloMosaic.TcCoe Idealize.SL.Sem Idealize.ShloMosaic.ValueIdx
open Idealize.ShloMosaic.StableHlo

/-! ## The host operations, one by one, read at an element

Each lemma is stated over a variable vector of the operation's literal operand type, and over any evidence of the
operation's shape relation. -/

/-- The first half of a vector of 1024: entry `t` is the vector's entry `t`. -/
theorem sliceLo_apply (x : S1024.Idx → EReal) (h : S1024.Slices ![0] S512) (t : Fin 512) :
    extractStridedSlice S512 ![0] x h (ix1 t) = x (ix1 (⟨t.val, by omega⟩ : Fin 1024)) := by
  refine extractStridedSlice_apply _ x h (ix1 t) (ix1 (⟨t.val, by omega⟩ : Fin 1024)) ?_
  intro a
  match a with
  | ⟨0, _⟩ => show t.val = 0 + t.val; omega

/-- The second half of a vector of 1024: entry `t` is the vector's entry `t + 512`. -/
theorem sliceHi_apply (x : S1024.Idx → EReal) (h : S1024.Slices ![512] S512) (t : Fin 512) :
    extractStridedSlice S512 ![512] x h (ix1 t) = x (ix1 (⟨t.val + 512, by omega⟩ : Fin 1024)) := by
  refine extractStridedSlice_apply _ x h (ix1 t) (ix1 (⟨t.val + 512, by omega⟩ : Fin 1024)) ?_
  intro a
  match a with
  | ⟨0, _⟩ => show t.val + 512 = 512 + t.val; omega

/-- A vector of 512 viewed as one row: entry `(0, t)` is the vector's entry `t`. -/
theorem row_apply (v : S512.Idx → EReal) (h : S512.ShapeCasts S1x512) (z : Fin 1) (t : Fin 512) :
    shapeCast S1x512 v h (ix2 z t) = v (ix1 t) := by
  refine shapeCast_apply v h (ix2 z t) (ix1 t) ?_
  rw [Shape.rowMajor_val_two, Shape.rowMajor_val_one]
  have hz : z.val = 0 := by omega
  show t.val = z.val * 512 + t.val
  omega

/-- The row laid down 8192 times: entry `(r, t)` is the row's entry `(0, t)`. -/
theorem tile_apply (y : S1x512.Idx → EReal) (h : S1x512.BroadcastsInDim S8192x512 (![0, 1] : Fin 2 → Fin S8192x512.rank))
    (r : Fin 8192) (t : Fin 512) :
    broadcastInDim S8192x512 ![0, 1] h y (ix2 r t) = y (ix2 (0 : Fin 1) t) := by
  refine broadcastInDim_apply _ h y (ix2 r t) (ix2 (0 : Fin 1) t) ?_
  intro a
  match a with
  | ⟨0, _⟩ => rfl
  | ⟨1, _⟩ => rfl

/-- The 8192 rows of 512 read as one vector: entry `n` is entry `(n / 512, n % 512)`. -/
theorem flat_apply (y : S8192x512.Idx → EReal) (h : S8192x512.ShapeCasts S4194304) (n : Fin 4194304) :
    shapeCast S4194304 y h (ix1 n)
      = y (ix2 (⟨n.val / 512, by omega⟩ : Fin 8192) (⟨n.val % 512, by omega⟩ : Fin 512)) := by
  refine shapeCast_apply y h (ix1 n) (ix2 (⟨n.val / 512, by omega⟩ : Fin 8192) (⟨n.val % 512, by omega⟩ : Fin 512)) ?_
  rw [Shape.rowMajor_val_two, Shape.rowMajor_val_one]
  show n.val / 512 * 512 + n.val % 512 = n.val
  omega

/-- The vector viewed as one row of 4194304: entry `(0, n)` is the vector's entry `n`. -/
theorem wide_apply (v : S4194304.Idx → EReal) (h : S4194304.ShapeCasts S1x4194304) (z : Fin 1) (n : Fin 4194304) :
    shapeCast S1x4194304 v h (ix2 z n) = v (ix1 n) := by
  refine shapeCast_apply v h (ix2 z n) (ix1 n) ?_
  rw [Shape.rowMajor_val_two, Shape.rowMajor_val_one]
  have hz : z.val = 0 := by omega
  show n.val = z.val * 4194304 + n.val
  omega

/-! ## The two window writes -/

/-- The start word `0`, broadcast to the one start index, reads `0`. -/
theorem start_lo (h : S_.BroadcastsInDim S1 (![] : Fin 0 → Fin S1.rank)) :
    (broadcastInDim S1 ![] h (constantI S_ 32 0#32) (ix1 (0 : Fin 1))).toInt = ((0 : Nat) : Int) := by
  show (0#32 : BitVec 32).toInt = _
  decide

/-- The start word `4193792`, broadcast to the one start index, reads `4193792`. -/
theorem start_hi (h : S_.BroadcastsInDim S1 (![] : Fin 0 → Fin S1.rank)) :
    (broadcastInDim S1 ![] h (constantI S_ 32 4193792#32) (ix1 (0 : Fin 1))).toInt = ((4193792 : Nat) : Int) := by
  show (4193792#32 : BitVec 32).toInt = _
  decide

/-- The window written at start `0`: the first 512 entries are the update's, the others the operand's. -/
theorem setLo_apply [Facts₀] (x : S4194304.Idx → EReal) (h : S_.BroadcastsInDim S1 (![] : Fin 0 → Fin S1.rank)) (u : S512.Idx → EReal)
    (n : Fin 4194304) :
    Host.scatter scatter_S4194304_S1_S512_0_n_0_0 (fun _ b => b) x (broadcastInDim S1 ![] h (constantI S_ 32 0#32)) u (ix1 n)
      = if hn : n.val < 512 then u (ix1 (⟨n.val, hn⟩ : Fin 512)) else x (ix1 n) := by
  refine (Cert.LibScatter.window_set_apply (N := 4194304) (M := 512) Facts₀.scatter_S4194304_S1_S512_0_n_0_0_wf x
    (broadcastInDim S1 ![] h (constantI S_ 32 0#32)) u 0 (start_lo h) (by omega) n).trans ?_
  by_cases hn : n.val < 512
  · rw [dif_pos ⟨Nat.zero_le _, by omega⟩, dif_pos hn]; rfl
  · rw [dif_neg (by omega), dif_neg hn]

/-- The window written at start `4193792`: the last 512 entries are the update's, the others the operand's. -/
theorem setHi_apply [Facts₀] (x : S4194304.Idx → EReal) (h : S_.BroadcastsInDim S1 (![] : Fin 0 → Fin S1.rank)) (u : S512.Idx → EReal)
    (n : Fin 4194304) :
    Host.scatter scatter_S4194304_S1_S512_0_n_0_0 (fun _ b => b) x (broadcastInDim S1 ![] h (constantI S_ 32 4193792#32)) u (ix1 n)
      = if hn : 4193792 ≤ n.val then u (ix1 (⟨n.val - 4193792, by omega⟩ : Fin 512)) else x (ix1 n) := by
  refine (Cert.LibScatter.window_set_apply (N := 4194304) (M := 512) Facts₀.scatter_S4194304_S1_S512_0_n_0_0_wf x
    (broadcastInDim S1 ![] h (constantI S_ 32 4193792#32)) u 4193792 (start_hi h) (by omega) n).trans ?_
  by_cases hn : 4193792 ≤ n.val
  · rw [dif_pos ⟨hn, by omega⟩, dif_pos hn]
  · rw [dif_neg (by omega), dif_neg hn]

/-! ## The table, composed -/

/-- The two windows' product, tap by tap. -/
abbrev prodW (aw sw : S1024.Idx → EReal) : S1024.Idx → EReal := mulf (F := Ideal) (φ := .f32) aw sw

/-- The product's two halves added: 512 entries. -/
abbrev halves (aw sw : S1024.Idx → EReal) : S512.Idx → EReal :=
  addf (F := Ideal) (φ := .f32) (extractStridedSlice S512 ![0] (prodW aw sw) Facts₀.slices_S1024_S512_0)
    (extractStridedSlice S512 ![512] (prodW aw sw) Facts₀.slices_S1024_S512_512)

/-- The halves' sum tiled 8192 times along the 4194304 samples. -/
abbrev tiled (aw sw : S1024.Idx → EReal) : S4194304.Idx → EReal :=
  shapeCast S4194304 (broadcastInDim S8192x512 ![0, 1] Facts₀.bcast_S1x512_S8192x512_0_1
    (shapeCast S1x512 (halves aw sw) Facts₀.shapeCasts_S512_S1x512)) Facts₀.shapeCasts_S8192x512_S4194304

/-- The host operations' row, as one term of the two windows: the tiled sum with its first 512 entries overwritten by
    the product's first half and its last 512 by the second half, viewed as one row. -/
def hostRow (aw sw : S1024.Idx → EReal) : S1x4194304.Idx → EReal :=
  shapeCast S1x4194304
    (Host.scatter scatter_S4194304_S1_S512_0_n_0_0 (fun _ b => b)
      (Host.scatter scatter_S4194304_S1_S512_0_n_0_0 (fun _ b => b) (tiled aw sw)
        (broadcastInDim S1 ![] Facts₀.bcast_S_S1 (constantI S_ 32 0#32))
        (extractStridedSlice S512 ![0] (prodW aw sw) Facts₀.slices_S1024_S512_0))
      (broadcastInDim S1 ![] Facts₀.bcast_S_S1 (constantI S_ 32 4193792#32))
      (extractStridedSlice S512 ![512] (prodW aw sw) Facts₀.slices_S1024_S512_512))
    Facts₀.shapeCasts_S4194304_S1x4194304

/-- The product at a tap is `Ola.tap`. -/
theorem prodW_apply (aw sw : S1024.Idx → EReal) (s : Fin 1024) : prodW aw sw (ix1 s) = Ola.tap aw sw s := rfl

/-- The tiled sum at sample `n`: the taps `n % 512` and `n % 512 + 512` added. -/
theorem tiled_apply (aw sw : S1024.Idx → EReal) (n : Fin 4194304) :
    tiled aw sw (ix1 n) = Ola.tap aw sw (Ola.lo n) + Ola.tap aw sw (Ola.hi n) := by
  show shapeCast S4194304 _ _ (ix1 n) = _
  rw [flat_apply, tile_apply, row_apply]
  show addf (F := Ideal) (φ := .f32) _ _ (ix1 (⟨n.val % 512, by omega⟩ : Fin 512)) = _
  rw [addf_apply, sliceLo_apply, sliceHi_apply, prodW_apply, prodW_apply]
  rfl

/-- THE ROW READ AT A COLUMN is the table. -/
theorem hostRow_apply (aw sw : S1024.Idx → EReal) (z : Fin 1) (n : Fin 4194304) :
    hostRow aw sw (ix2 z n) = Ola.table aw sw n := by
  unfold hostRow
  rw [wide_apply, setHi_apply, setLo_apply, tiled_apply]
  unfold Ola.table
  by_cases h1 : n.val < 512
  · rw [if_pos h1, dif_neg (by omega), dif_pos h1, sliceLo_apply, prodW_apply]
    refine congrArg (Ola.tap aw sw) (Fin.ext ?_)
    show n.val = n.val % 512
    omega
  · rw [if_neg h1, dif_neg h1]
    by_cases h2 : 4193792 ≤ n.val
    · rw [if_pos h2, dif_pos h2, sliceHi_apply, prodW_apply]
      refine congrArg (Ola.tap aw sw) (Fin.ext ?_)
      show n.val - 4193792 + 512 = n.val % 512 + 512
      omega
    · rw [if_neg h2, dif_neg h2]

variable (m : (ℓ : Loc nD τ sig) → Buf (Elt Ideal) ℓ)

/-- THE TABLE ROW the region finds is `Ola.table` of the two window arguments. -/
theorem table_eq (c : Dev nD) :
    (V m c main_v13 : S1x4194304.Idx → EReal)
      = fun j => Ola.table (m ((c : Thread nD τ).loc main_arg1)) (m ((c : Thread nD τ).loc main_arg2)) (j 1) := by
  have e : (V m c main_v13 : S1x4194304.Idx → EReal)
      = hostRow (m ((c : Thread nD τ).loc main_arg1)) (m ((c : Thread nD τ).loc main_arg2)) := by
    dsimp only [Gen.V, Gen.hostOps0]
    after_results
    rfl
  rw [e]
  funext j
  obtain ⟨z, n, rfl⟩ : ∃ (z : Fin 1) (n : Fin 4194304), j = ix2 z n := ⟨j 0, j 1, eq_ix2 j⟩
  exact hostRow_apply _ _ z n

end Cert.KernelIdeal.KTable

end
-- ==== Proof.LibOverlapAdd.lean ====
/-
  An accumulating scatter of FRAMES back onto a signal (`rec.at[:, idx].add(frames)`), read at a sample, at the ideal
  instance (the exact sum of the updates that land on an element).

  The operand is `[B, N]`, the updates `[B, K, S]` (row, frame, tap), the scatter indices `[K, S, 1]`: update
  `(b, k, s)` lands on `(b, idx[k, s, 0])` when that is inside the operand. First the result index in general; then the
  overlap-add itself, `idx[k, s, 0] = 512 k + s` over 8191 frames of 1024 taps: sample `n` collects the one or two
  frames that cover it.
-/
import proofs.«107043_j91293824843827_1_alg».proof.Proof.Spec

noncomputable section

namespace Cert.LibOverlapAdd

open Idealize.ShloMosaic Idealize.ShloMosaic.ValueIdx Cert.Ola

variable {w : Nat}

/-- The dimension numbers: `update_window_dims = [0]`, `inserted_window_dims = [1]`,
    `scatter_dims_to_operand_dims = [1]`, `index_vector_dim = 2`. -/
abbrev frameDims (B N K S : Nat)
    (wf : ScatterDims.WF ⟨2, ![B, N]⟩ ⟨3, ![K, S, 1]⟩ ⟨3, ![B, K, S]⟩ [0] [1] [1] 2) :
    ScatterDims ⟨2, ![B, N]⟩ ⟨3, ![K, S, 1]⟩ ⟨3, ![B, K, S]⟩ where
  updateWindowDims := [0]
  insertedWindowDims := [1]
  scatterDimsToOperandDims := [1]
  indexVectorDim := 2
  wf := wf

/-- Update `(b, k, s)` lands on `(b, idx[k, s, 0])`, read signed, when that sample exists. -/
theorem frameDims_resultIdx? {B N K S : Nat}
    (wf : ScatterDims.WF ⟨2, ![B, N]⟩ ⟨3, ![K, S, 1]⟩ ⟨3, ![B, K, S]⟩ [0] [1] [1] 2)
    (idx : IVec ⟨3, ![K, S, 1]⟩ w) (b : Fin B) (k : Fin K) (s : Fin S) (p : Nat)
    (hp : (idx (ix3 k s (0 : Fin 1))).toInt = (p : Int)) (hpN : p < N) :
    (frameDims B N K S wf).resultIdx? (ix3 b k s) idx = some (ix2 b ⟨p, hpN⟩) := by
  -- axis 0 is not named by the map: its start is 0
  have hstart0 : (frameDims B N K S wf).start (ix3 b k s) idx 0 = 0 := by
    unfold ScatterDims.start
    rw [dif_neg (fun h => absurd (List.mem_singleton.mp h) (show ¬ ((0 : Fin 2) = 1) by decide))]
  -- axis 1 is the map's one entry: its start is the scatter index at (k, s, 0)
  have hmem1 : (1 : Fin 2) ∈ (frameDims B N K S wf).scatterDimsToOperandDims := List.mem_singleton.mpr rfl
  have hstart1 : (frameDims B N K S wf).start (ix3 b k s) idx 1 = (p : Int) := by
    unfold ScatterDims.start
    rw [dif_pos hmem1]
    have hsi : (frameDims B N K S wf).siIdx (ix3 b k s)
        ⟨List.idxOf (1 : Fin 2) (frameDims B N K S wf).scatterDimsToOperandDims,
          List.idxOf_lt_length_iff.2 hmem1⟩ = ix3 k s (0 : Fin 1) := by
      funext a; refine Fin.ext ?_
      match a with
      | ⟨0, _⟩ => rfl
      | ⟨1, _⟩ => rfl
      | ⟨2, _⟩ => rfl
    rw [hsi, hp]
  -- axis 0 is the one kept axis: its window coordinate is the row
  have hk0 : (0 : Fin 2) ∈ (frameDims B N K S wf).sKept :=
    List.mem_filter.2 ⟨List.mem_finRange _, by simp⟩
  have hwin0 : (frameDims B N K S wf).window (ix3 b k s) 0 = b.val := by
    unfold ScatterDims.window
    rw [dif_pos hk0]
    rfl
  -- axis 1 is inserted: its window coordinate is 0
  have hwin1 : (frameDims B N K S wf).window (ix3 b k s) 1 = 0 := by
    unfold ScatterDims.window
    rw [dif_neg (fun h => by simpa using (List.mem_filter.1 h).2)]
  have hall : ∀ a, 0 ≤ (frameDims B N K S wf).start (ix3 b k s) idx a + (frameDims B N K S wf).window (ix3 b k s) a ∧
      (frameDims B N K S wf).start (ix3 b k s) idx a + (frameDims B N K S wf).window (ix3 b k s) a
        < (⟨2, ![B, N]⟩ : Shape).size a := by
    intro a
    match a with
    | ⟨0, _⟩ =>
      have h0 := hstart0; have h1 := hwin0; have hb := b.isLt
      show 0 ≤ (frameDims B N K S wf).start (ix3 b k s) idx 0 + ((frameDims B N K S wf).window (ix3 b k s) 0 : Int) ∧
        (frameDims B N K S wf).start (ix3 b k s) idx 0 + ((frameDims B N K S wf).window (ix3 b k s) 0 : Int) < (B : Int)
      rw [h0, h1]; omega
    | ⟨1, _⟩ =>
      have h0 := hstart1; have h1 := hwin1
      show 0 ≤ (frameDims B N K S wf).start (ix3 b k s) idx 1 + ((frameDims B N K S wf).window (ix3 b k s) 1 : Int) ∧
        (frameDims B N K S wf).start (ix3 b k s) idx 1 + ((frameDims B N K S wf).window (ix3 b k s) 1 : Int) < (N : Int)
      rw [h0, h1]; omega
  unfold ScatterDims.resultIdx?
  rw [dif_pos hall]
  congr 1
  funext a
  refine Fin.ext ?_
  match a with
  | ⟨0, _⟩ =>
    show ((frameDims B N K S wf).start (ix3 b k s) idx 0 + ((frameDims B N K S wf).window (ix3 b k s) 0 : Int)).toNat = b.val
    rw [hstart0, hwin0]; omega
  | ⟨1, _⟩ =>
    show ((frameDims B N K S wf).start (ix3 b k s) idx 1 + ((frameDims B N K S wf).window (ix3 b k s) 1 : Int)).toNat = p
    rw [hstart1, hwin1]; omega

/-- Two rank-2 indices given by coordinates are equal exactly when the coordinates are. -/
theorem ix2_inj {n0 n1 : Nat} (a a' : Fin n0) (b b' : Fin n1) : ix2 a b = ix2 a' b' ↔ a = a' ∧ b = b' := by
  constructor
  · intro h; exact ⟨congrFun h (0 : Fin 2), congrFun h (1 : Fin 2)⟩
  · rintro ⟨rfl, rfl⟩; rfl

/-- Two rank-3 indices given by coordinates are equal exactly when the coordinates are. -/
theorem ix3_inj {n0 n1 n2 : Nat} (a a' : Fin n0) (b b' : Fin n1) (c c' : Fin n2) :
    ix3 a b c = ix3 a' b' c' ↔ a = a' ∧ b = b' ∧ c = c' := by
  constructor
  · intro h; exact ⟨congrFun h (0 : Fin 3), congrFun h (1 : Fin 3), congrFun h (2 : Fin 3)⟩
  · rintro ⟨rfl, rfl, rfl⟩; rfl

/-- A sum over the indices that satisfy a predicate is the sum over any explicit finite set with the same members. -/
theorem sum_filter_eq {ι : Type} [Fintype ι] (P : ι → Prop) [DecidablePred P] (f : ι → EReal) (T : Finset ι)
    (h : ∀ j, P j ↔ j ∈ T) : ∑ j ∈ Finset.univ.filter P, f j = ∑ j ∈ T, f j := by
  congr 1
  ext j
  rw [Finset.mem_filter, h j]
  exact ⟨fun hj => hj.2, fun hj => ⟨Finset.mem_univ j, hj⟩⟩

/-- THE OVERLAP-ADD READ AT A SAMPLE: with `idx[k, s, 0] = 512 k + s`, sample `n` of row `b` is the operand's element
    plus the update of frame `n / 512` at tap `n % 512` (absent in the last hop) plus that of frame `n / 512 - 1` at tap
    `n % 512 + 512` (absent in the first hop). -/
theorem overlapAdd_apply
    (wf : ScatterDims.WF ⟨2, ![16, 4194304]⟩ ⟨3, ![8191, 1024, 1]⟩ ⟨3, ![16, 8191, 1024]⟩ [0] [1] [1] 2)
    (z : SX.Idx → EReal) (idx : IVec ⟨3, ![8191, 1024, 1]⟩ 32)
    (upd : (⟨3, ![16, 8191, 1024]⟩ : Shape).Idx → EReal)
    (hidx : ∀ (k : Fin 8191) (s : Fin 1024), (idx (ix3 k s (0 : Fin 1))).toInt = ((512 * k.val + s.val : Nat) : Int))
    (b : Fin 16) (n : Fin 4194304) :
    Ideal.hostScatterAdd (frameDims 16 4194304 8191 1024 wf) z idx upd (ix2 b n)
      = z (ix2 b n) +
        (if n.val < 512 then upd (ix3 b (frLo n) (lo n))
         else if 4193792 ≤ n.val then upd (ix3 b (frHi n) (hi n))
         else upd (ix3 b (frLo n) (lo n)) + upd (ix3 b (frHi n) (hi n))) := by
  -- every update's result index
  have hres : ∀ (b' : Fin 16) (k : Fin 8191) (s : Fin 1024),
      (frameDims 16 4194304 8191 1024 wf).resultIdx? (ix3 b' k s) idx
        = some (ix2 b' (⟨512 * k.val + s.val, by omega⟩ : Fin 4194304)) := fun b' k s =>
    frameDims_resultIdx? wf idx b' k s (512 * k.val + s.val) (hidx k s) (by omega)
  -- which updates land on sample n of row b: 512 k + s = n with s < 1024 leaves two candidates
  have hmem : ∀ j : (⟨3, ![16, 8191, 1024]⟩ : Shape).Idx,
      (frameDims 16 4194304 8191 1024 wf).resultIdx? j idx = some (ix2 b n) ↔
        (j = ix3 b (frLo n) (lo n) ∧ n.val < 4193792) ∨ (j = ix3 b (frHi n) (hi n) ∧ 512 ≤ n.val) := by
    intro j
    obtain ⟨b', k, s, rfl⟩ : ∃ (b' : Fin 16) (k : Fin 8191) (s : Fin 1024), j = ix3 b' k s :=
      ⟨j 0, j 1, j 2, eq_ix3 j⟩
    rw [hres b' k s, Option.some.injEq, ix2_inj, ix3_inj, ix3_inj]
    have hk := k.isLt; have hs := s.isLt; have hn := n.isLt
    simp only [Fin.ext_iff, frLo, frHi, lo, hi]
    omega
  have hne : ix3 b (frLo n) (lo n) ≠ ix3 b (frHi n) (hi n) := by
    intro h
    have h2 := ((ix3_inj _ _ _ _ _ _).1 h).2.2
    simp only [Fin.ext_iff, lo, hi] at h2
    omega
  show z (ix2 b n) + _ = _
  congr 1
  split_ifs with h1 h2
  · rw [sum_filter_eq _ upd {ix3 b (frLo n) (lo n)}, Finset.sum_singleton]
    intro j
    rw [hmem j, Finset.mem_singleton]
    constructor
    · rintro (⟨h, -⟩ | ⟨-, h⟩)
      · exact h
      · omega
    · intro h; exact Or.inl ⟨h, by omega⟩
  · rw [sum_filter_eq _ upd {ix3 b (frHi n) (hi n)}, Finset.sum_singleton]
    intro j
    rw [hmem j, Finset.mem_singleton]
    constructor
    · rintro (⟨-, h⟩ | ⟨h, -⟩)
      · omega
      · exact h
    · intro h; exact Or.inr ⟨h, by omega⟩
  · rw [sum_filter_eq _ upd {ix3 b (frLo n) (lo n), ix3 b (frHi n) (hi n)}, Finset.sum_pair hne]
    intro j
    rw [hmem j, Finset.mem_insert, Finset.mem_singleton]
    constructor
    · rintro (⟨h, -⟩ | ⟨h, -⟩)
      · exact Or.inl h
      · exact Or.inr h
    · rintro (h | h)
      · exact Or.inl ⟨h, by omega⟩
      · exact Or.inr ⟨h, by omega⟩

end Cert.LibOverlapAdd

end
-- ==== Proof.LibFrameGather.lean ====
/-
  A gather of FRAMES out of a signal (`x[:, idx]`), read at an element.

  The operand is `[B, N]`, the start indices `[K, S, 1]`, the result `[B, K, S]` (row, frame, tap): element
  `(b, k, s)` is the operand's `(b, idx[k, s, 0])`, the start read signed and clamped into the row; where the start is a
  sample of the row nothing is clamped.
-/
import Idealize.ShloMosaic.PureOps.Ideal
import Idealize.ShloMosaic.Lib.ValueIdx

noncomputable section

namespace Cert.LibFrameGather

open Idealize.ShloMosaic Idealize.ShloMosaic.ValueIdx

variable {α : Type} {w : Nat}

/-- The dimension numbers: `offset_dims = [0]`, `collapsed_slice_dims = [1]`, `start_index_map = [1]`,
    `index_vector_dim = 2`, slices of a whole column of one sample. -/
abbrev frameGather (B N K S : Nat)
    (wf : GatherDims.WF ⟨2, ![B, N]⟩ ⟨3, ![K, S, 1]⟩ ⟨3, ![B, K, S]⟩ [0] [1] [] [1] [] 2 ![B, 1]) :
    GatherDims ⟨2, ![B, N]⟩ ⟨3, ![K, S, 1]⟩ ⟨3, ![B, K, S]⟩ where
  offsetDims := [0]
  collapsedSliceDims := [1]
  operandBatchingDims := []
  startIndicesBatchingDims := []
  startIndexMap := [1]
  indexVectorDim := 2
  sliceSizes := ![B, 1]
  wf := wf

/-- THE GATHER READ AT `(b, k, s)`: the operand at row `b`, sample `idx[k, s, 0]`, when that is a sample of the row. -/
theorem frameGather_apply {B N K S : Nat}
    (wf : GatherDims.WF ⟨2, ![B, N]⟩ ⟨3, ![K, S, 1]⟩ ⟨3, ![B, K, S]⟩ [0] [1] [] [1] [] 2 ![B, 1])
    (x : (⟨2, ![B, N]⟩ : Shape).Idx → α) (idx : IVec ⟨3, ![K, S, 1]⟩ w) (b : Fin B) (k : Fin K) (s : Fin S) (p : Nat)
    (hp : (idx (ix3 k s (0 : Fin 1))).toInt = (p : Int)) (hpN : p < N) :
    Host.gather (frameGather B N K S wf) x idx (ix3 b k s) = x (ix2 b ⟨p, hpN⟩) := by
  unfold Host.gather
  congr 1
  funext a
  refine Fin.ext ?_
  match a with
  | ⟨0, _⟩ =>
    -- the row axis is kept and is not in the start index map: the result's row coordinate
    show (frameGather B N K S wf).start (ix3 b k s) idx 0 + (frameGather B N K S wf).batchCoord (ix3 b k s) 0
      + (frameGather B N K S wf).offCoord (ix3 b k s) 0 = b.val
    rw [GatherDims.batchCoord_eq_zero _ _ _ List.not_mem_nil]
    unfold GatherDims.start
    rw [dif_neg (show (0 : Fin 2) ∉ ([1] : List (Fin 2)) from by decide)]
    unfold GatherDims.offCoord
    rw [dif_pos ((GatherDims.mem_sKept (frameGather B N K S wf) 0).mpr
      ⟨show (0 : Fin 2) ∉ ([1] : List (Fin 2)) from by decide, List.not_mem_nil⟩)]
    simp only [Nat.zero_add]
    rfl
  | ⟨1, _⟩ =>
    -- the sample axis is collapsed: the start alone, read off the start indices, clamped into the row
    show (frameGather B N K S wf).start (ix3 b k s) idx 1 + (frameGather B N K S wf).batchCoord (ix3 b k s) 1
      + (frameGather B N K S wf).offCoord (ix3 b k s) 1 = p
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (frameGather B N K S wf).startIndexMap from List.mem_singleton.mpr rfl)]
    have hsi : (frameGather B N K S wf).siIdx (ix3 b k s) ⟨List.idxOf (1 : Fin 2) (frameGather B N K S wf).startIndexMap,
        List.idxOf_lt_length_iff.2 (List.mem_singleton.mpr rfl)⟩ = ix3 k s (0 : Fin 1) := by
      funext c; refine Fin.ext ?_
      match c with
      | ⟨0, _⟩ => rfl
      | ⟨1, _⟩ => rfl
      | ⟨2, _⟩ => rfl
    rw [hsi, hp, Int.toNat_natCast]
    show min p (N - 1) = p
    omega

end Cert.LibFrameGather

end
-- ==== Proof.RefIndex.lean ====
/-
  The reference's start indices, read: frame `k`, tap `s` starts at sample `512 k + s`, for the gather and for the
  scatter alike (an iota times the hop plus an iota; the sum is never negative, so the select that would wrap a
  negative index around keeps it).
-/
import proofs.«107043_j91293824843827_1_alg».proof.Proof.Gen.ReferenceIdeal.Read
import Idealize.ShloMosaic.Lib.ValueIdx
import Idealize.ShloMosaic.Lib.StableHlo.Predicate

noncomputable section

namespace Cert.ReferenceIdeal.RefIndex

open Cert.ReferenceIdeal Cert.ReferenceIdeal.Gen Cert.ReferenceIdeal.Read
open Idealize.ShloMosaic Idealize.ShloMosaic.ValueIdx

/-- Frame `k`'s first sample plus the tap, as 32-bit words: the product and the sum of the words are the word of
    `512 k + s` (word arithmetic is arithmetic modulo `2^32`, and so is `BitVec.ofNat`). -/
theorem word_start (k s : Nat) :
    IntOp.addi (IntOp.muli (BitVec.ofNat 32 k) 512#32) (BitVec.ofNat 32 s) = BitVec.ofNat 32 (512 * k + s) := by
  unfold IntOp.addi IntOp.muli
  rw [show (512#32 : BitVec 32) = BitVec.ofNat 32 512 from rfl, ← BitVec.ofNat_mul, ← BitVec.ofNat_add, Nat.mul_comm]

/-- A word below `2^31` is not negative: the signed comparison with zero answers `0`. -/
theorem cmpi_slt_zero (n : Nat) (hn : n < 2 ^ 31) : IntOp.cmpi .slt (BitVec.ofNat 32 n) 0#32 = 0#1 := by
  apply eq_zero_of_ne_one
  intro h
  have h0 : (0#32 : BitVec 32).toNat < 2 ^ 31 := by decide
  have hn' : (BitVec.ofNat 32 n).toNat < 2 ^ 31 := by rw [BitVec.toNat_ofNat]; omega
  have := (StableHlo.Predicate.slt_iff_toNat hn' h0).mp h
  simp at this

/-- The sum of the two iotas at frame `k`, tap `s`: the word of `512 k + s`. -/
theorem sum_read (k : Fin 8191) (s : Fin 1024) :
    val_main_v8 (F := Ideal) (ix2 k s) = BitVec.ofNat 32 (512 * k.val + s.val) := by
  rw [val_main_v8_apply, val_main_v6_apply, val_main_v3_apply, val_main_v2_apply, val_main_v0_apply, val_main_v1_apply,
    val_main_c_apply, val_main_v7_apply, val_main_v5_apply, val_main_v4_apply]
  exact word_start k.val s.val

/-- The scatter's start index of frame `k`, tap `s` is sample `512 k + s`. -/
theorem scatter_start (k : Fin 8191) (s : Fin 1024) :
    (val_main_v28 (F := Ideal) (ix3 k s (0 : Fin 1))).toInt = ((512 * k.val + s.val : Nat) : Int) := by
  have hi : idx_main_v28 (ix3 k s (0 : Fin 1)) = ix2 k s := by
    funext a; match a with | ⟨0, _⟩ => rfl | ⟨1, _⟩ => rfl
  have hlt : 512 * k.val + s.val < 2 ^ 31 := by have := k.isLt; have := s.isLt; omega
  rw [val_main_v28_apply, hi, val_main_v27_apply, val_main_v24_apply, val_main_v23_apply, val_main_c_2_apply, sum_read,
    cmpi_slt_zero _ hlt, select_zero]
  exact StableHlo.Predicate.toInt_ofNat_small _ hlt

/-- The gather's start index of frame `k`, tap `s` is sample `512 k + s`. -/
theorem gather_start (k : Fin 8191) (s : Fin 1024) :
    (val_main_v14 (F := Ideal) (ix3 k s (0 : Fin 1))).toInt = ((512 * k.val + s.val : Nat) : Int) := by
  have hi : idx_main_v14 (ix3 k s (0 : Fin 1)) = ix2 k s := by
    funext a; match a with | ⟨0, _⟩ => rfl | ⟨1, _⟩ => rfl
  have hlt : 512 * k.val + s.val < 2 ^ 31 := by have := k.isLt; have := s.isLt; omega
  rw [val_main_v14_apply, hi, val_main_v13_apply, val_main_v10_apply, val_main_v9_apply, val_main_c_0_apply, sum_read,
    cmpi_slt_zero _ hlt, select_zero]
  exact StableHlo.Predicate.toInt_ofNat_small _ hlt

end Cert.ReferenceIdeal.RefIndex

end
-- ==== Proof.RefValue.lean ====
/-
  The reference's result, read: it is the overlap-add `Ola.refOut` of its three arguments.

  The gather reads sample `512 k + s` of each row into frame `k`, tap `s`; the two multiplications window it; the
  accumulating scatter adds frame `k`, tap `s` back onto sample `512 k + s`, over zeros: so sample `n` collects the
  one or two frames that cover it, each the sample itself windowed twice.
-/
import proofs.«107043_j91293824843827_1_alg».proof.Proof.Gen.ReferenceIdeal.Read
import proofs.«107043_j91293824843827_1_alg».proof.Proof.Spec
import proofs.«107043_j91293824843827_1_alg».proof.Proof.LibOverlapAdd
import proofs.«107043_j91293824843827_1_alg».proof.Proof.LibFrameGather
import proofs.«107043_j91293824843827_1_alg».proof.Proof.RefIndex
import Idealize.ShloMosaic.PureOps.Ideal.Laws

noncomputable section

namespace Cert.ReferenceIdeal.RefValue

open Cert.ReferenceIdeal Cert.ReferenceIdeal.Gen Cert.ReferenceIdeal.Read Cert.ReferenceIdeal.RefIndex
open Idealize.ShloMosaic Idealize.ShloMosaic.ValueIdx Cert.Ola

/-- A window broadcast over rows and frames is read at its tap. -/
theorem win_idx (b : Fin 16) (k : Fin 8191) (s : Fin 1024) :
    idx_main_v16 (idx_main_v17 (ix3 b k s)) = ix1 s := by
  funext a
  match a with
  | ⟨0, _⟩ => rfl

/-- The gathered element of frame `k`, tap `s` is the sample `512 k + s` of its row. -/
theorem gath_eq (x : (⟨S16x4194304, .f32⟩ : BufTy).Contents (Elt Ideal))
    (b : Fin 16) (k : Fin 8191) (s : Fin 1024) (n : Fin 4194304) (h : 512 * k.val + s.val = n.val) :
    val_main_v15 (F := Ideal) x (ix3 b k s) = x (ix2 b n) := by
  have hp : (val_main_v14 (F := Ideal) (ix3 k s (0 : Fin 1))).toInt = ((n.val : Nat) : Int) := by
    rw [gather_start k s, h]
  exact Cert.LibFrameGather.frameGather_apply (B := 16) (N := 4194304) (K := 8191) (S := 1024)
    gather_S16x4194304_S8191x1024x1_S16x8191x1024_0_1_n_n_1_2_161_wf x (val_main_v14 (F := Ideal)) b k s n.val hp n.isLt

/-- One update of the scatter: frame `k`, tap `s` holds the sample `512 k + s`, windowed twice. -/
theorem upd_eq (x : (⟨S16x4194304, .f32⟩ : BufTy).Contents (Elt Ideal))
    (aw sw : (⟨S1024, .f32⟩ : BufTy).Contents (Elt Ideal))
    (b : Fin 16) (k : Fin 8191) (s : Fin 1024) (n : Fin 4194304) (h : 512 * k.val + s.val = n.val) :
    val_main_v22 (F := Ideal) x aw sw (ix3 b k s) = Ola.term x aw sw b n s := by
  rw [val_main_v22_apply, val_main_v18_apply, val_main_v21_apply, val_main_v20_apply, val_main_v17_apply,
    val_main_v16_apply, gath_eq x b k s n h]
  rw [show idx_main_v20 (idx_main_v21 (ix3 b k s)) = ix1 s from win_idx b k s, win_idx b k s]
  rfl

/-- THE REFERENCE'S RESULT is the overlap-add of its arguments. -/
theorem ref_value (x : (⟨S16x4194304, .f32⟩ : BufTy).Contents (Elt Ideal))
    (aw sw : (⟨S1024, .f32⟩ : BufTy).Contents (Elt Ideal)) :
    val_main_v29 (F := Ideal) x aw sw = Ola.refOut x aw sw := by
  funext i
  obtain ⟨b, n, rfl⟩ : ∃ (b : Fin 16) (n : Fin 4194304), i = ix2 b n := ⟨i 0, i 1, eq_ix2 i⟩
  rw [Ola.refOut_apply]
  -- the scatter's operand is zero everywhere
  have hz : val_main_v19 (F := Ideal) (ix2 b n) = 0 := by
    rw [val_main_v19_apply, val_main_cst_apply]
    exact Ideal.ofBits_zero_f32
  -- the accumulating scatter, read at sample `n` of row `b`
  have key := Cert.LibOverlapAdd.overlapAdd_apply scatter_S16x4194304_S8191x1024x1_S16x8191x1024_0_1_1_2_wf
    (val_main_v19 (F := Ideal)) (val_main_v28 (F := Ideal)) (val_main_v22 (F := Ideal) x aw sw) scatter_start b n
  rw [hz, zero_add] at key
  refine Eq.trans key ?_
  -- each frame that covers the sample holds the sample itself, windowed twice
  have hlo : n.val < 4193792 → 512 * (frLo n).val + (lo n).val = n.val := by
    intro h; simp only [frLo, lo]; omega
  have hhi : 512 ≤ n.val → 512 * (frHi n).val + (hi n).val = n.val := by
    intro h; simp only [frHi, hi]; omega
  split_ifs with h1 h2
  · exact upd_eq x aw sw b (frLo n) (lo n) n (hlo (by omega))
  · exact upd_eq x aw sw b (frHi n) (hi n) n (hhi (by omega))
  · rw [upd_eq x aw sw b (frLo n) (lo n) n (hlo (by omega)), upd_eq x aw sw b (frHi n) (hi n) n (hhi (by omega))]

end Cert.ReferenceIdeal.RefValue

end
-- ==== Proof.lean ====
/-
  A windowed overlap-add with nothing between cutting and adding back, against its closed form.

  The reference cuts each of the 16 rows of a signal of 4194304 samples into 8191 frames of 1024 samples at hop 512,
  multiplies every frame tap by tap by an analysis window and by a synthesis window, and adds the frames back at their
  places. The frame length being twice the hop, a sample lies in at most two frames, so the result is the signal times a
  table of the two windows: one product of taps in the first and in the last hop, the sum of two in between. The kernel
  builds that table on the host (the windows' product, its halves added, tiled, the two ends overwritten) and multiplies
  the signal by it block by block.

  Both results are read as functions of the arguments — the kernel's as `Ola.kernelOut` (the signal times the table:
  the blocks of the run put together, the host's table read entry by entry), the reference's as `Ola.refOut` (the one or
  two frames that cover a sample: the gather, the two products and the accumulating scatter read at an element) — and
  the two agree on real inputs by distributivity, which is where the precondition (finite inputs) is used: on the
  extended reals `x (a + b) = x a + x b` fails at infinities.
-/
import proofs.«107043_j91293824843827_1_alg».proof.Defs
import proofs.«107043_j91293824843827_1_alg».proof.Proof.Gen.Kernel
import proofs.«107043_j91293824843827_1_alg».proof.Proof.Gen.Kernel.Skeleton
import proofs.«107043_j91293824843827_1_alg».proof.Proof.Gen.Kernel.Launch
import proofs.«107043_j91293824843827_1_alg».proof.Proof.Gen.Kernel.Points
import proofs.«107043_j91293824843827_1_alg».proof.Proof.Gen.Kernel.Frame
import proofs.«107043_j91293824843827_1_alg».proof.Proof.Gen.KernelIdeal
import proofs.«107043_j91293824843827_1_alg».proof.Proof.Gen.KernelIdeal.Skeleton
import proofs.«107043_j91293824843827_1_alg».proof.Proof.Gen.KernelIdeal.Launch
import proofs.«107043_j91293824843827_1_alg».proof.Proof.Gen.KernelIdeal.Points
import proofs.«107043_j91293824843827_1_alg».proof.Proof.Gen.KernelIdeal.Frame
import proofs.«107043_j91293824843827_1_alg».proof.Proof.Gen.ReferenceIdeal
import proofs.«107043_j91293824843827_1_alg».proof.Proof.Gen.Pre_finite_inputs
import proofs.«107043_j91293824843827_1_alg».proof.Proof.Gen.KernelIdeal.Value
import proofs.«107043_j91293824843827_1_alg».proof.Proof.Gen.ReferenceIdeal.Run
import proofs.«107043_j91293824843827_1_alg».proof.Proof.Gen.ReferenceIdeal.Read
import proofs.«107043_j91293824843827_1_alg».proof.Proof.Spec
import proofs.«107043_j91293824843827_1_alg».proof.Proof.Finite
import proofs.«107043_j91293824843827_1_alg».proof.Proof.KernelArray
import proofs.«107043_j91293824843827_1_alg».proof.Proof.KernelTable
import proofs.«107043_j91293824843827_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's run, its result named -/

section KernelRun

open Cert.KernelIdeal Cert.KernelIdeal.Gen

variable (m : (ℓ : Loc nD τ sig) → Buf (Elt Ideal) ℓ) (ρ : Dev nD → PrngReg)

/-- The signal the region finds is the first argument as launched. -/
theorem sigArr_eq (c : Dev nD) : Cert.KernelIdeal.KValue.sigArr m c = m ((c : Thread nD τ).loc main_arg0) :=
  V_main_arg0 m c

/-- The table row the region finds is the table of the two window arguments. -/
theorem tabArr_eq (c : Dev nD) : Cert.KernelIdeal.KValue.tabArr m c
    = fun j => Ola.table (m ((c : Thread nD τ).loc main_arg1)) (m ((c : Thread nD τ).loc main_arg2)) (j 1) :=
  Cert.KernelIdeal.KTable.table_eq m c

/-- The kernel's result array after the run is the signal times the table of the two windows. -/
theorem kernel_out (c : Dev nD) :
    (dats m 0 c).arrAt 2 cfg0.N
      = Ola.kernelOut (m ((c : Thread nD τ).loc main_arg0)) (m ((c : Thread nD τ).loc main_arg1))
          (m ((c : Thread nD τ).loc main_arg2)) := by
  rw [Cert.KernelIdeal.KValue.kernel_array]
  funext i
  obtain ⟨b, n, rfl⟩ : ∃ (b : Fin 16) (n : Fin 4194304), i = ix2 b n := ⟨i 0, i 1, eq_ix2 i⟩
  rw [Ola.kernelOut_apply]
  show Cert.KernelIdeal.KValue.sigArr m c (ix2 b n) * Cert.KernelIdeal.KValue.tabArr m c (ix2 (0 : Fin 1) n) = _
  rw [sigArr_eq, tabArr_eq]

/-- Every weakly fair execution of the idealized kernel ends with that result and the arguments unchanged. -/
theorem kernel_run : θ_run defs (onTc (τ := τ) (main (F := Ideal))) ⟨m, fun _ => 0, ρ⟩ fun r => ∀ c : Dev nD,
      r.2.mem ((c : Thread nD τ).loc main_v14)
        = Ola.kernelOut (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (kernel_out m c), (h c).2⟩)
    (Cert.KernelIdeal.Value.run_blocks m ρ)

end KernelRun

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments the kernel ends at the signal times the table and the reference at the
    overlap-add of the same arguments; the precondition makes all three arguments real, where the two are equal. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_value,
    (hagree c).1, (hagree c).2.1, (hagree c).2.2]
  obtain ⟨hx, ha, hs⟩ := Cert.Finite.finite_of_pre _ _ _ (hpre c)
  exact (Ola.kernelOut_eq_refOut _ _ _ hx ha hs).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
